-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2x128 : Shape := ⟨3, ![16384, 2, 128]⟩
abbrev S128x128x384 : Shape := ⟨3, ![128, 128, 384]⟩
abbrev S384x128 : Shape := ⟨2, ![384, 128]⟩
abbrev S384 : Shape := ⟨1, ![384]⟩
abbrev S_ : Shape := ⟨0, ![]⟩

class Facts : Prop where
  bcast_S_S16384x2x128 : S_.BroadcastsInDim S16384x2x128 (![] : Fin 0 → Fin S16384x2x128.rank)
  reducesTo_S16384x2x128_S_d0_1_2 : S16384x2x128.ReducesTo [0, 1, 2] S_
  h_S_ : 0 < S_.numel
  bcast_S_S128x128x384 : S_.BroadcastsInDim S128x128x384 (![] : Fin 0 → Fin S128x128x384.rank)
  reducesTo_S128x128x384_S_d0_1_2 : S128x128x384.ReducesTo [0, 1, 2] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  main_v23

def fn {F : FTy → Type} [FloatOps F] (main_arg0 : FVec F S16384x2x128 .f32) (main_arg1 : FVec F S128x128x384 .f32) (main_arg2 : FVec F S384x128 .f32) (main_arg3 : FVec F S384x128 .f32) (main_arg4 : FVec F S384 .f32) : IVec S_ 1 :=
  let main_v0 : FVec F S16384x2x128 .f32 := Host.absf main_arg0
  let main_cst : FVec F S_ .f32 := constant S_ .f32 0x7F800000#32
  let main_v1 : FVec F S16384x2x128 .f32 := broadcastInDim S16384x2x128 ![] bcast_S_S16384x2x128 main_cst
  let main_v2 : IVec S16384x2x128 1 := cmpf .olt main_v0 main_v1
  let main_c : IVec S_ 1 := constantI S_ 1 1#1
  let main_v3 : IVec S_ 1 := (fun x v => Host.reduce IntOp.andi x v reducesTo_S16384x2x128_S_d0_1_2 h_S_) main_v2 main_c
  let main_v4 : FVec F S128x128x384 .f32 := Host.absf main_arg1
  let main_cst_0 : FVec F S_ .f32 := constant S_ .f32 0x7F800000#32
  let main_v5 : FVec F S128x128x384 .f32 := broadcastInDim S128x128x384 ![] bcast_S_S128x128x384 main_cst_0
  let main_v6 : IVec S128x128x384 1 := cmpf .olt main_v4 main_v5
  let main_c_1 : IVec S_ 1 := constantI S_ 1 1#1
  let main_v7 : IVec S_ 1 := (fun x v => Host.reduce IntOp.andi x v reducesTo_S128x128x384_S_d0_1_2 h_S_) main_v6 main_c_1
  let main_v8 : IVec S_ 1 := andi main_v3 main_v7
  let main_v9 : FVec F S384x128 .f32 := Host.absf main_arg2
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_v13 main_v16
-- ==== Kernel.lean ====
abbrev S16384x2x128 : Shape := ⟨3, ![16384, 2, 128]⟩
abbrev S128x128x384 : Shape := ⟨3, ![128, 128, 384]⟩
abbrev S384x128 : Shape := ⟨2, ![384, 128]⟩
abbrev S384 : Shape := ⟨1, ![384]⟩
abbrev S16384x1x128 : Shape := ⟨3, ![16384, 1, 128]⟩
abbrev S16384x128 : Shape := ⟨2, ![16384, 128]⟩
abbrev S16384x384 : Shape := ⟨2, ![16384, 384]⟩
abbrev S128x384 : Shape := ⟨2, ![128, 384]⟩
abbrev S1x384 : Shape := ⟨2, ![1, 384]⟩
abbrev S256x128 : Shape := ⟨2, ![256, 128]⟩
abbrev S256x384 : Shape := ⟨2, ![256, 384]⟩
abbrev S256x128x1 : Shape := ⟨3, ![256, 128, 1]⟩
abbrev S256x1x128 : Shape := ⟨3, ![256, 1, 128]⟩
abbrev S256x128x128 : Shape := ⟨3, ![256, 128, 128]⟩
abbrev S256x16384 : Shape := ⟨2, ![256, 16384]⟩

abbrev nBuf : Space → Nat
  | .hbm => 17
  | .vmem => 10
  | .smem => 0
  | _ => 0

abbrev bufTy : (tb : Table) → Fin (tcTables nBuf tb) → BufTy
  | .hbm, ⟨0, _⟩ => ⟨S16384x2x128, .f32⟩
  | .hbm, ⟨1, _⟩ => ⟨S128x128x384, .f32⟩
  | .hbm, ⟨2, _⟩ => ⟨S384x128, .f32⟩
  | .hbm, ⟨3, _⟩ => ⟨S384x128, .f32⟩
  | .hbm, ⟨4, _⟩ => ⟨S384, .f32⟩
  | .hbm, ⟨5, _⟩ => ⟨S16384x1x128, .f32⟩
  | .hbm, ⟨6, _⟩ => ⟨S16384x128, .f32⟩
  | .hbm, ⟨7, _⟩ => ⟨S16384x1x128, .f32⟩
  | .hbm, ⟨8, _⟩ => ⟨S16384x128, .f32⟩
  | .hbm, ⟨9, _⟩ => ⟨S16384x384, .f32⟩
  | .hbm, ⟨10, _⟩ => ⟨S16384x384, .bf16⟩
  | .hbm, ⟨11, _⟩ => ⟨S128x384, .f32⟩
  | .hbm, ⟨12, _⟩ => ⟨S128x384, .bf16⟩
  | .hbm, ⟨13, _⟩ => ⟨S128x384, .f32⟩
  | .hbm, ⟨14, _⟩ => ⟨S128x384, .bf16⟩
  | .hbm, ⟨15, _⟩ => ⟨S1x384, .f32⟩
  | .hbm, ⟨16, _⟩ => ⟨S16384x384, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S16384x384, .bf16⟩
  | .local _ .vmem, ⟨5, _⟩ => ⟨S128x384, .bf16⟩
  | .local _ .vmem, ⟨6, _⟩ => ⟨S128x384, .bf16⟩
  | .local _ .vmem, ⟨7, _⟩ => ⟨S1x384, .f32⟩
  | .local _ .vmem, ⟨8, _⟩ => ⟨S256x384, .f32⟩
  | .local _ .vmem, ⟨9, _⟩ => ⟨S256x384, .f32⟩
  | _, _ => ⟨S16384x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16384x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S16384x2x128_S16384x1x128_0_0_0 : S16384x2x128.Slices ![0, 0, 0] S16384x1x128
  shapeCasts_S16384x1x128_S16384x128 : S16384x1x128.ShapeCasts S16384x128
  slices_S16384x2x128_S16384x1x128_0_1_0 : S16384x2x128.Slices ![0, 1, 0] S16384x1x128
  shapeCasts_S128x128x384_S16384x384 : S128x128x384.ShapeCasts S16384x384
  bitsLt_bf16_f32 : FTy.bits .bf16 < FTy.bits .f32
  transposes_S384x128_S128x384_1_0 : S384x128.Transposes [1, 0] S128x384
  shapeCasts_S384_S1x384 : S384.ShapeCasts S1x384
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S256x128_S256x128x1 : S256x128.ShapeCasts S256x128x1
  shapeCasts_S256x128_S256x1x128 : S256x128.ShapeCasts S256x1x128
  broadcasts_S256x128x1_S256x128x128 : S256x128x1.Broadcasts S256x128x128
  broadcasts_S256x1x128_S256x128x128 : S256x1x128.Broadcasts S256x128x128
  shapeCasts_S256x128x128_S256x16384 : S256x128x128.ShapeCasts S256x16384
  inb_S16384x384_S16384x384_0_0 : ∀ a, (![0, 0] : Fin 2 → Nat) a + S16384x384.size a ≤ S16384x384.size a
  h_S16384x384 : 0 < S16384x384.numel
  shapeCasts_S16384x384_S16384x384 : S16384x384.ShapeCasts S16384x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S256x384 : S1x384.Broadcasts S256x384
  inb_S256x384_S256x384_0_0 : ∀ a, (![0, 0] : Fin 2 → Nat) a + S256x384.size a ≤ S256x384.size a
  h_S256x384 : 0 < S256x384.numel
  dot_S256x16384_S16384x384_S256x384_1_0_0_1_n_n_wf : DotDims.WF S256x16384 S16384x384 S256x384 [1] [0] [0] [1] [] []
  dot_S256x128_S128x384_S256x384_1_0_0_1_n_n_wf : DotDims.WF S256x128 S128x384 S256x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S16384x128.size a
  hwx0_0 : ∀ i : grid0.Coords, EltTy.bits .f32 = 32 ∨ (Rect.block (s := S16384x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S16384x128.size a
  hwx0_1 : ∀ i : grid0.Coords, EltTy.bits .f32 = 32 ∨ (Rect.block (s := S16384x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x384.size a ≤ S16384x384.size a
  hwx0_2 : ∀ i : grid0.Coords, EltTy.bits .bf16 = 32 ∨ (Rect.block (s := S16384x384) S16384x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .bf16 = 32 ∨ (Rect.block (s := S128x384) S128x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x384.size a ≤ S128x384.size a
  hwx0_4 : ∀ i : grid0.Coords, EltTy.bits .bf16 = 32 ∨ (Rect.block (s := S128x384) S128x384.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x384.size a ≤ S16384x384.size a
  hwx0_6 : ∀ i : grid0.Coords, EltTy.bits .f32 = 32 ∨ (Rect.block (s := S16384x384) S256x384.size (cc0_transform_6 i) (hinb0_6 i)).WholeWords (EltTy.packing .f32)

variable [Facts₀]

def dot_S256x16384_S16384x384_S256x384_1_0_0_1_n_n : DotDims S256x16384 S16384x384 S256x384 where
  lhsContracting := [1]
  rhsContracting := [0]
  lhsNonContracting := [0]
  rhsNonContracting := [1]
  lhsBatch := []
  rhsBatch := []
  wf := dot_S256x16384_S16384x384_S256x384_1_0_0_1_n_n_wf
def dot_S256x128_S128x384_S256x384_1_0_0_1_n_n : DotDims S256x128 S128x384 S256x384 where
  lhsContracting := [1]
  rhsContracting := [0]
  lhsNonContracting := [0]
  rhsNonContracting := [1]
  lhsBatch := []
  rhsBatch := []
  wf := dot_S256x128_S128x384_S256x384_1_0_0_1_n_n_wf

abbrev win0_0 : Pipeline.Window sig grid0 :=
  Pipeline.Window.ofSpec (Memref.whole main_v1) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16384x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S256x384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x2x128 : Shape := ⟨3, ![16384, 2, 128]⟩
abbrev S128x128x384 : Shape := ⟨3, ![128, 128, 384]⟩
abbrev S384x128 : Shape := ⟨2, ![384, 128]⟩
abbrev S384 : Shape := ⟨1, ![384]⟩
abbrev S16384x1x128 : Shape := ⟨3, ![16384, 1, 128]⟩
abbrev S16384x128 : Shape := ⟨2, ![16384, 128]⟩
abbrev S16384x128x1 : Shape := ⟨3, ![16384, 128, 1]⟩
abbrev S16384x128x128 : Shape := ⟨3, ![16384, 128, 128]⟩
abbrev S16384x16384 : Shape := ⟨2, ![16384, 16384]⟩
abbrev S16384x384 : Shape := ⟨2, ![16384, 384]⟩
abbrev S128x384 : Shape := ⟨2, ![128, 384]⟩
abbrev S1x384 : Shape := ⟨2, ![1, 384]⟩

abbrev nBuf : Space → Nat
  | .hbm => 26
  | .vmem => 0
  | .smem => 0
  | _ => 0

abbrev bufTy : (tb : Table) → Fin (tcTables nBuf tb) → BufTy
  | .hbm, ⟨0, _⟩ => ⟨S16384x2x128, .f32⟩
  | .hbm, ⟨1, _⟩ => ⟨S128x128x384, .f32⟩
  | .hbm, ⟨2, _⟩ => ⟨S384x128, .f32⟩
  | .hbm, ⟨3, _⟩ => ⟨S384x128, .f32⟩
  | .hbm, ⟨4, _⟩ => ⟨S384, .f32⟩
  | .hbm, ⟨5, _⟩ => ⟨S16384x1x128, .f32⟩
  | .hbm, ⟨6, _⟩ => ⟨S16384x128, .f32⟩
  | .hbm, ⟨7, _⟩ => ⟨S16384x1x128, .f32⟩
  | .hbm, ⟨8, _⟩ => ⟨S16384x128, .f32⟩
  | .hbm, ⟨9, _⟩ => ⟨S16384x128x1, .f32⟩
  | .hbm, ⟨10, _⟩ => ⟨S16384x1x128, .f32⟩
  | .hbm, ⟨11, _⟩ => ⟨S16384x128x128, .f32⟩
  | .hbm, ⟨12, _⟩ => ⟨S16384x128x128, .f32⟩
  | .hbm, ⟨13, _⟩ => ⟨S16384x128x128, .f32⟩
  | .hbm, ⟨14, _⟩ => ⟨S16384x16384, .f32⟩
  | .hbm, ⟨15, _⟩ => ⟨S16384x384, .f32⟩
  | .hbm, ⟨16, _⟩ => ⟨S16384x384, .f32⟩
  | .hbm, ⟨17, _⟩ => ⟨S128x384, .f32⟩
  | .hbm, ⟨18, _⟩ => ⟨S16384x384, .f32⟩
  | .hbm, ⟨19, _⟩ => ⟨S16384x384, .f32⟩
  | .hbm, ⟨20, _⟩ => ⟨S128x384, .f32⟩
  | .hbm, ⟨21, _⟩ => ⟨S16384x384, .f32⟩
  | .hbm, ⟨22, _⟩ => ⟨S16384x384, .f32⟩
  | .hbm, ⟨23, _⟩ => ⟨S1x384, .f32⟩
  | .hbm, ⟨24, _⟩ => ⟨S16384x384, .f32⟩
  | .hbm, ⟨25, _⟩ => ⟨S16384x384, .f32⟩
  | _, _ => ⟨S16384x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]

class Facts₀ : Prop where
  slices_S16384x2x128_S16384x1x128_0_0_0 : S16384x2x128.Slices ![0, 0, 0] S16384x1x128
  shapeCasts_S16384x1x128_S16384x128 : S16384x1x128.ShapeCasts S16384x128
  slices_S16384x2x128_S16384x1x128_0_1_0 : S16384x2x128.Slices ![0, 1, 0] S16384x1x128
  bcast_S16384x128_S16384x128x1_0_1 : S16384x128.BroadcastsInDim S16384x128x1 (![0, 1] : Fin 2 → Fin S16384x128x1.rank)
  bcast_S16384x128_S16384x1x128_0_2 : S16384x128.BroadcastsInDim S16384x1x128 (![0, 2] : Fin 2 → Fin S16384x1x128.rank)
  bcast_S16384x128x1_S16384x128x128_0_1_2 : S16384x128x1.BroadcastsInDim S16384x128x128 (![0, 1, 2] : Fin 3 → Fin S16384x128x128.rank)
  bcast_S16384x1x128_S16384x128x128_0_1_2 : S16384x1x128.BroadcastsInDim S16384x128x128 (![0, 1, 2] : Fin 3 → Fin S16384x128x128.rank)
  shapeCasts_S16384x128x128_S16384x16384 : S16384x128x128.ShapeCasts S16384x16384
  shapeCasts_S128x128x384_S16384x384 : S128x128x384.ShapeCasts S16384x384
  transposes_S384x128_S128x384_1_0 : S384x128.Transposes [1, 0] S128x384
  bcast_S384_S1x384_1 : S384.BroadcastsInDim S1x384 (![1] : Fin 1 → Fin S1x384.rank)
  bcast_S1x384_S16384x384_0_1 : S1x384.BroadcastsInDim S16384x384 (![0, 1] : Fin 2 → Fin S16384x384.rank)
  dot_S16384x16384_S16384x384_S16384x384_1_0_0_1_n_n_wf : DotDims.WF S16384x16384 S16384x384 S16384x384 [1] [0] [0] [1] [] []
  dot_S16384x128_S128x384_S16384x384_1_0_0_1_n_n_wf : DotDims.WF S16384x128 S128x384 S16384x384 [1] [0] [0] [1] [] []

variable [Facts₀]

def dot_S16384x16384_S16384x384_S16384x384_1_0_0_1_n_n : DotDims S16384x16384 S16384x384 S16384x384 where
  lhsContracting := [1]
  rhsContracting := [0]
  lhsNonContracting := [0]
  rhsNonContracting := [1]
  lhsBatch := []
  rhsBatch := []
  wf := dot_S16384x16384_S16384x384_S16384x384_1_0_0_1_n_n_wf
def dot_S16384x128_S128x384_S16384x384_1_0_0_1_n_n : DotDims S16384x128 S128x384 S16384x384 where
  lhsContracting := [1]
  rhsContracting := [0]
  lhsNonContracting := [0]
  rhsNonContracting := [1]
  lhsBatch := []
  rhsBatch := []
  wf := dot_S16384x128_S128x384_S16384x384_1_0_0_1_n_n_wf

class Facts : Prop extends Facts₀ where

variable [Facts]
-- ==== Proof.GateSpec.lean ====
/-
  The gate pre-activation of a binary tree cell with a full bilinear tensor, as ONE function of the five
  arguments, over the extended reals.

  A node has two children with embeddings `h¹ = nh[n, 0, ·]` and `h² = nh[n, 1, ·]` in ℝ¹²⁸. Output channel `k` (of
  384) of node `n` is

      Σ_{i,j} h¹ᵢ · h²ⱼ · A[i, j, k]  +  Σᵢ h¹ᵢ · U¹[k, i]  +  Σᵢ h²ᵢ · U²[k, i]  +  b[k].

  The double sum over (i, j) is written as one sum over the flattened position `c = 128·i + j` of the outer product
  `h¹ ⊗ h²`: both programs contract that flattened axis against `A` flattened the same way, so no sum is ever
  re-associated into a double sum. The three additions are grouped from the left, as both programs group them.
  Only `+` and `·` of the extended reals occur, applied in the same places on both sides; nothing here needs the
  entries to be finite.
-/
import Idealize.ShloMosaic.PureOps.Ideal
import Idealize.ShloMosaic.Lib.ValueIdx

noncomputable section

open Idealize.ShloMosaic Idealize.ShloMosaic.ValueIdx

namespace Cert.BilinearGate

/-- The row `i` of the outer product's flattened position `c = 128·i + j`. -/
def outerRow (c : Fin 16384) : Fin 128 := ⟨c.val / 128, by have := c.isLt; omega⟩

/-- The column `j` of the outer product's flattened position `c = 128·i + j`. -/
def outerCol (c : Fin 16384) : Fin 128 := ⟨c.val % 128, Nat.mod_lt _ (by decide)⟩

theorem outerRow_val (c : Fin 16384) : (outerRow c).val = c.val / 128 := rfl
theorem outerCol_val (c : Fin 16384) : (outerCol c).val = c.val % 128 := rfl

/-- The bilinear term of node `n`, channel `k`: the flattened outer product of the two children against the
    flattened tensor. -/
def bilinear (nh : (⟨3, ![16384, 2, 128]⟩ : Shape).Idx → EReal) (A : (⟨3, ![128, 128, 384]⟩ : Shape).Idx → EReal)
    (n : Fin 16384) (k : Fin 384) : EReal :=
  ∑ c : Fin 16384, (nh (ix3 n (0 : Fin 2) (outerRow c)) * nh (ix3 n (1 : Fin 2) (outerCol c))) * A (ix3 (outerRow c) (outerCol c) k)

/-- The linear term of child `s` (0 or 1) of node `n`, channel `k`: the child's embedding against row `k` of a
    weight matrix stored (out, in). -/
def linear (nh : (⟨3, ![16384, 2, 128]⟩ : Shape).Idx → EReal) (U : (⟨2, ![384, 128]⟩ : Shape).Idx → EReal)
    (s : Fin 2) (n : Fin 16384) (k : Fin 384) : EReal :=
  ∑ i : Fin 128, nh (ix3 n s i) * U (ix2 k i)

/-- The gate at node `n`, channel `k`. -/
def gateAt (nh : (⟨3, ![16384, 2, 128]⟩ : Shape).Idx → EReal) (A : (⟨3, ![128, 128, 384]⟩ : Shape).Idx → EReal)
    (U1 U2 : (⟨2, ![384, 128]⟩ : Shape).Idx → EReal) (b : (⟨1, ![384]⟩ : Shape).Idx → EReal)
    (n : Fin 16384) (k : Fin 384) : EReal :=
  ((bilinear nh A n k + linear nh U1 0 n k) + linear nh U2 1 n k) + b (ix1 k)

/-- The whole result array. -/
def gate (nh : (⟨3, ![16384, 2, 128]⟩ : Shape).Idx → EReal) (A : (⟨3, ![128, 128, 384]⟩ : Shape).Idx → EReal)
    (U1 U2 : (⟨2, ![384, 128]⟩ : Shape).Idx → EReal) (b : (⟨1, ![384]⟩ : Shape).Idx → EReal) :
    (⟨2, ![16384, 384]⟩ : Shape).Idx → EReal :=
  fun i => gateAt nh A U1 U2 b (i 0) (i 1)

theorem gate_ix2 (nh : (⟨3, ![16384, 2, 128]⟩ : Shape).Idx → EReal) (A : (⟨3, ![128, 128, 384]⟩ : Shape).Idx → EReal)
    (U1 U2 : (⟨2, ![384, 128]⟩ : Shape).Idx → EReal) (b : (⟨1, ![384]⟩ : Shape).Idx → EReal) (n : Fin 16384) (k : Fin 384) :
    gate nh A U1 U2 b (ix2 n k) = gateAt nh A U1 U2 b n k := rfl

end Cert.BilinearGate

end
-- ==== Proof.RefGate.lean ====
/-
  The reference computes `gate`.

  The reference takes the two children's embeddings as two slices of the node array, forms their outer product by two
  broadcasts and a product, flattens it to one axis of 16384 positions, contracts it against the tensor flattened the
  same way, and adds the two linear terms (each child against a transposed weight matrix) and the bias broadcast
  down the nodes. Read at an index, stage by stage:
    child s at (n, i)            is  nh[n, s, i]                        (a slice, then a reshape that drops the unit axis)
    flattened outer at (n, c)    is  nh[n, 0, c / 128] · nh[n, 1, c % 128]
    flattened tensor at (c, k)   is  A[c / 128, c % 128, k]
    transposed weights at (i, k) is  U[k, i]
    bias at (n, k)               is  b[k]
  and the three contractions are sums over their one contracted axis. The result is `gate` term by term, with the
  same grouping of the three additions.
-/
import proofs.«170840_j75453985456646_1_alg».proof.Proof.Gen.ReferenceIdeal.Read
import proofs.«170840_j75453985456646_1_alg».proof.Proof.GateSpec

noncomputable section

open Idealize.ShloMosaic Idealize.ShloMosaic.ValueIdx

namespace Cert.ReferenceIdeal.RefGate

open Cert.ReferenceIdeal Cert.ReferenceIdeal.Read Cert.BilinearGate

/-- The first child's embedding of node `n` at `i`. -/
theorem child0_at (x0 : S16384x2x128.Idx → EReal) (j : S16384x128.Idx) (n : Fin 16384) (i : Fin 128)
    (hn : (j 0).val = n.val) (hi : (j 1).val = i.val) :
    val_main_v1 (F := Ideal) x0 j = x0 (ix3 n (0 : Fin 2) i) := by
  rw [val_main_v1_apply, val_main_v0_apply]
  have h0 := n.isLt
  have h1 := i.isLt
  exact congrArg x0 (funext fun a => Fin.ext (by
    match a with
    | ⟨0, _⟩ => show ((j 0).val * 128 + (j 1).val) / 128 = n.val; omega
    | ⟨1, _⟩ => rfl
    | ⟨2, _⟩ => show ((j 0).val * 128 + (j 1).val) % 128 = i.val; omega))

/-- The second child's embedding of node `n` at `i`. -/
theorem child1_at (x0 : S16384x2x128.Idx → EReal) (j : S16384x128.Idx) (n : Fin 16384) (i : Fin 128)
    (hn : (j 0).val = n.val) (hi : (j 1).val = i.val) :
    val_main_v3 (F := Ideal) x0 j = x0 (ix3 n (1 : Fin 2) i) := by
  rw [val_main_v3_apply, val_main_v2_apply]
  have h0 := n.isLt
  have h1 := i.isLt
  exact congrArg x0 (funext fun a => Fin.ext (by
    match a with
    | ⟨0, _⟩ => show ((j 0).val * 128 + (j 1).val) / 128 = n.val; omega
    | ⟨1, _⟩ => rfl
    | ⟨2, _⟩ => show ((j 0).val * 128 + (j 1).val) % 128 = i.val; omega))

/-- The flattened outer product of node `n`'s two children at position `c`. -/
theorem outer_at (x0 : S16384x2x128.Idx → EReal) (j : S16384x16384.Idx) (n c : Fin 16384)
    (hn : (j 0).val = n.val) (hc : (j 1).val = c.val) :
    val_main_v9 (F := Ideal) x0 j = x0 (ix3 n (0 : Fin 2) (outerRow c)) * x0 (ix3 n (1 : Fin 2) (outerCol c)) := by
  have h0 := n.isLt
  have h1 := c.isLt
  rw [val_main_v9_apply, val_main_v8_apply, val_main_v6_apply, val_main_v4_apply, val_main_v7_apply, val_main_v5_apply,
    child0_at x0 _ n (outerRow c)
      (by show ((j 0).val * 16384 + (j 1).val) / 16384 = n.val; omega)
      (by show ((j 0).val * 16384 + (j 1).val) / 128 % 128 = c.val / 128; omega),
    child1_at x0 _ n (outerCol c)
      (by show ((j 0).val * 16384 + (j 1).val) / 16384 = n.val; omega)
      (by show ((j 0).val * 16384 + (j 1).val) % 128 = c.val % 128; omega)]
  rfl

/-- The flattened tensor at position `c`, channel `k`. -/
theorem tensor_at (x1 : S128x128x384.Idx → EReal) (j : S16384x384.Idx) (c : Fin 16384) (k : Fin 384)
    (hc : (j 0).val = c.val) (hk : (j 1).val = k.val) :
    val_main_v10 (F := Ideal) x1 j = x1 (ix3 (outerRow c) (outerCol c) k) := by
  rw [val_main_v10_apply]
  have h0 := c.isLt
  have h1 := k.isLt
  exact congrArg x1 (funext fun a => Fin.ext (by
    match a with
    | ⟨0, _⟩ => show ((j 0).val * 384 + (j 1).val) / 49152 = c.val / 128; omega
    | ⟨1, _⟩ => show ((j 0).val * 384 + (j 1).val) / 384 % 128 = c.val % 128; omega
    | ⟨2, _⟩ => show ((j 0).val * 384 + (j 1).val) % 384 = k.val; omega))

/-- The first weight matrix, transposed, at (i, k). -/
theorem weight1T_at (x2 : S384x128.Idx → EReal) (j : S128x384.Idx) (i : Fin 128) (k : Fin 384)
    (hi : (j 0).val = i.val) (hk : (j 1).val = k.val) :
    val_main_v12 (F := Ideal) x2 j = x2 (ix2 k i) := by
  rw [val_main_v12_apply]
  exact congrArg x2 (funext fun a => Fin.ext (by
    match a with
    | ⟨0, _⟩ => exact hk
    | ⟨1, _⟩ => exact hi))

/-- The second weight matrix, transposed, at (i, k). -/
theorem weight2T_at (x3 : S384x128.Idx → EReal) (j : S128x384.Idx) (i : Fin 128) (k : Fin 384)
    (hi : (j 0).val = i.val) (hk : (j 1).val = k.val) :
    val_main_v15 (F := Ideal) x3 j = x3 (ix2 k i) := by
  rw [val_main_v15_apply]
  exact congrArg x3 (funext fun a => Fin.ext (by
    match a with
    | ⟨0, _⟩ => exact hk
    | ⟨1, _⟩ => exact hi))

/-- The bias broadcast down the nodes, at channel `k`. -/
theorem bias_at (x4 : S384.Idx → EReal) (j : S16384x384.Idx) (k : Fin 384) (hk : (j 1).val = k.val) :
    val_main_v19 (F := Ideal) x4 j = x4 (ix1 k) := by
  rw [val_main_v19_apply, val_main_v18_apply]
  exact congrArg x4 (funext fun a => Fin.ext (by
    match a with
    | ⟨0, _⟩ => exact hk))

/-- The reference's result is `gate` of its arguments. -/
theorem result_eq (x0 : S16384x2x128.Idx → EReal) (x1 : S128x128x384.Idx → EReal) (x2 x3 : S384x128.Idx → EReal)
    (x4 : S384.Idx → EReal) :
    val_main_v20 (F := Ideal) x0 x1 x2 x3 x4 = gate x0 x1 x2 x3 x4 := by
  funext i
  obtain ⟨n, k, rfl⟩ : ∃ (n : Fin 16384) (k : Fin 384), i = ix2 n k := ⟨i 0, i 1, eq_ix2 i⟩
  rw [gate_ix2, val_main_v20_apply, val_main_v17_apply, val_main_v14_apply, val_main_v11_apply, val_main_v13_apply,
    val_main_v16_apply, bias_at x4 _ k rfl]
  unfold gateAt bilinear linear
  simp only [Ideal.addf_def]
  refine congrArg₂ (· + ·) (congrArg₂ (· + ·) (congrArg₂ (· + ·)
    (Finset.sum_congr rfl fun c _ => ?_) (Finset.sum_congr rfl fun q _ => ?_)) (Finset.sum_congr rfl fun q _ => ?_)) rfl
  · rw [outer_at x0 _ n c rfl rfl, tensor_at x1 _ c k rfl rfl]
  · rw [child0_at x0 _ n q rfl rfl, weight1T_at x2 _ q k rfl rfl]
  · rw [child1_at x0 _ n q rfl rfl, weight2T_at x3 _ q k rfl rfl]

end Cert.ReferenceIdeal.RefGate

end
-- ==== Proof.BodyValue.lean ====
/-
  What the kernel body stores, read at one entry of its 256 × 384 output block.

  At a grid point the body holds a block of 256 nodes: the first children's embeddings `u` and the second
  children's `v` (both 256 × 128), the whole flattened tensor `a` (16384 × 384), the two transposed weight matrices
  `w¹`, `w²` (128 × 384) and the bias as one row `β` (1 × 384). It forms the outer product `u[r, i] · v[r, j]` by
  copying `u` along a new last axis and `v` along a new middle axis, flattens (i, j) to `c = 128·i + j`, and takes
  three matrix products into zero accumulators. Over the extended reals the narrowing to bf16 is the identity and a
  product into a zero accumulator is the plain sum over the contracted axis, so entry (r, k) of the stored block is

      Σ_c u[r, c / 128] · v[r, c % 128] · a[c, k]  +  Σᵢ u[r, i] · w¹[i, k]  +  Σᵢ v[r, i] · w²[i, k]  +  β[0, k],

  the additions grouped from the left.
-/
import proofs.«170840_j75453985456646_1_alg».proof.Proof.Gen.KernelIdeal.Skeleton
import proofs.«170840_j75453985456646_1_alg».proof.Proof.GateSpec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.BodyValue

open Cert.KernelIdeal Cert.KernelIdeal.Gen Cert.BilinearGate

/-! ## The outer product of a block's two halves, flattened -/

/-- `u` copied along a new last axis: entry (r, i, j) is `u[r, i]`. -/
theorem alongLast_at (u : S256x128.Idx → EReal) (r : Fin 256) (i j : Fin 128) :
    broadcastTo S256x128x128 (shapeCast S256x128x1 u shapeCasts_S256x128_S256x128x1) broadcasts_S256x128x1_S256x128x128 (ix3 r i j)
      = u (ix2 r i) := by
  refine (broadcastTo_apply _ _ (ix3 r i j) (ix3 r i (0 : Fin 1)) (fun a => ?_)).trans ?_
  · match a with
    | ⟨0, _⟩ => rfl
    | ⟨1, _⟩ => rfl
    | ⟨2, _⟩ => rfl
  · exact shapeCast_apply _ _ (ix3 r i (0 : Fin 1)) (ix2 r i) (by
      rw [Shape.rowMajor_val_two, Shape.rowMajor_val_three]
      show r.val * 128 + i.val = (r.val * 128 + i.val) * 1 + 0
      omega)

/-- `v` copied along a new middle axis: entry (r, i, j) is `v[r, j]`. -/
theorem alongMiddle_at (v : S256x128.Idx → EReal) (r : Fin 256) (i j : Fin 128) :
    broadcastTo S256x128x128 (shapeCast S256x1x128 v shapeCasts_S256x128_S256x1x128) broadcasts_S256x1x128_S256x128x128 (ix3 r i j)
      = v (ix2 r j) := by
  refine (broadcastTo_apply _ _ (ix3 r i j) (ix3 r (0 : Fin 1) j) (fun a => ?_)).trans ?_
  · match a with
    | ⟨0, _⟩ => rfl
    | ⟨1, _⟩ => rfl
    | ⟨2, _⟩ => rfl
  · exact shapeCast_apply _ _ (ix3 r (0 : Fin 1) j) (ix2 r j) (by
      rw [Shape.rowMajor_val_two, Shape.rowMajor_val_three]
      show r.val * 128 + j.val = (r.val * 1 + 0) * 128 + j.val
      omega)

/-- The flattened outer product at row `r`, position `c`. -/
theorem outerFlat_at (u v : S256x128.Idx → EReal) (j : S256x16384.Idx) (r : Fin 256) (c : Fin 16384)
    (hr : (j 0).val = r.val) (hc : (j 1).val = c.val) :
    shapeCast S256x16384 (mulf (F := Ideal) (φ := .bf16)
        (broadcastTo S256x128x128 (shapeCast S256x128x1 u shapeCasts_S256x128_S256x128x1) broadcasts_S256x128x1_S256x128x128)
        (broadcastTo S256x128x128 (shapeCast S256x1x128 v shapeCasts_S256x128_S256x1x128) broadcasts_S256x1x128_S256x128x128))
      shapeCasts_S256x128x128_S256x16384 j
    = u (ix2 r (outerRow c)) * v (ix2 r (outerCol c)) := by
  have h0 := r.isLt
  have h1 := c.isLt
  refine (shapeCast_apply _ _ j (ix3 r (outerRow c) (outerCol c)) (by
    rw [Shape.rowMajor_val_three, Shape.rowMajor_val_two]
    show (r.val * 128 + c.val / 128) * 128 + c.val % 128 = (j 0).val * 16384 + (j 1).val
    omega)).trans ?_
  rw [mulf_apply, alongLast_at, alongMiddle_at]

/-! ## The three products -/

theorem lhs_dot_S256x16384_S16384x384_S256x384_1_0_0_1_n_n_0 (i : S256x384.Idx) (q : dot_S256x16384_S16384x384_S256x384_1_0_0_1_n_n.contr.Idx) :
    (dot_S256x16384_S16384x384_S256x384_1_0_0_1_n_n.lhsIdx i q 0).val = (i 0).val := by
  unfold DotDims.lhsIdx
  rw [dif_neg (show ¬(0 : Fin S256x16384.rank) ∈ dot_S256x16384_S16384x384_S256x384_1_0_0_1_n_n.lhsBatch by decide), dif_pos (show (0 : Fin S256x16384.rank) ∈ dot_S256x16384_S16384x384_S256x384_1_0_0_1_n_n.lhsNonContracting by decide)]
  rfl
theorem lhs_dot_S256x16384_S16384x384_S256x384_1_0_0_1_n_n_1 (i : S256x384.Idx) (q : dot_S256x16384_S16384x384_S256x384_1_0_0_1_n_n.contr.Idx) :
    (dot_S256x16384_S16384x384_S256x384_1_0_0_1_n_n.lhsIdx i q 1).val = (q ⟨0, by decide⟩).val :=
  dot_S256x16384_S16384x384_S256x384_1_0_0_1_n_n.lhsIdx_val_of_single rfl i q
theorem rhs_dot_S256x16384_S16384x384_S256x384_1_0_0_1_n_n_0 (i : S256x384.Idx) (q : dot_S256x16384_S16384x384_S256x384_1_0_0_1_n_n.contr.Idx) :
    (dot_S256x16384_S16384x384_S256x384_1_0_0_1_n_n.rhsIdx i q 0).val = (q ⟨0, by decide⟩).val :=
  dot_S256x16384_S16384x384_S256x384_1_0_0_1_n_n.rhsIdx_val_of_single rfl i q
theorem rhs_dot_S256x16384_S16384x384_S256x384_1_0_0_1_n_n_1 (i : S256x384.Idx) (q : dot_S256x16384_S16384x384_S256x384_1_0_0_1_n_n.contr.Idx) :
    (dot_S256x16384_S16384x384_S256x384_1_0_0_1_n_n.rhsIdx i q 1).val = (i 1).val := by
  unfold DotDims.rhsIdx
  rw [dif_neg (show ¬(1 : Fin S16384x384.rank) ∈ dot_S256x16384_S16384x384_S256x384_1_0_0_1_n_n.rhsBatch by decide), dif_pos (show (1 : Fin S16384x384.rank) ∈ dot_S256x16384_S16384x384_S256x384_1_0_0_1_n_n.rhsNonContracting by decide)]
  rfl

theorem lhs_dot_S256x128_S128x384_S256x384_1_0_0_1_n_n_0 (i : S256x384.Idx) (q : dot_S256x128_S128x384_S256x384_1_0_0_1_n_n.contr.Idx) :
    (dot_S256x128_S128x384_S256x384_1_0_0_1_n_n.lhsIdx i q 0).val = (i 0).val := by
  unfold DotDims.lhsIdx
  rw [dif_neg (show ¬(0 : Fin S256x128.rank) ∈ dot_S256x128_S128x384_S256x384_1_0_0_1_n_n.lhsBatch by decide), dif_pos (show (0 : Fin S256x128.rank) ∈ dot_S256x128_S128x384_S256x384_1_0_0_1_n_n.lhsNonContracting by decide)]
  rfl
theorem lhs_dot_S256x128_S128x384_S256x384_1_0_0_1_n_n_1 (i : S256x384.Idx) (q : dot_S256x128_S128x384_S256x384_1_0_0_1_n_n.contr.Idx) :
    (dot_S256x128_S128x384_S256x384_1_0_0_1_n_n.lhsIdx i q 1).val = (q ⟨0, by decide⟩).val :=
  dot_S256x128_S128x384_S256x384_1_0_0_1_n_n.lhsIdx_val_of_single rfl i q
theorem rhs_dot_S256x128_S128x384_S256x384_1_0_0_1_n_n_0 (i : S256x384.Idx) (q : dot_S256x128_S128x384_S256x384_1_0_0_1_n_n.contr.Idx) :
    (dot_S256x128_S128x384_S256x384_1_0_0_1_n_n.rhsIdx i q 0).val = (q ⟨0, by decide⟩).val :=
  dot_S256x128_S128x384_S256x384_1_0_0_1_n_n.rhsIdx_val_of_single rfl i q
theorem rhs_dot_S256x128_S128x384_S256x384_1_0_0_1_n_n_1 (i : S256x384.Idx) (q : dot_S256x128_S128x384_S256x384_1_0_0_1_n_n.contr.Idx) :
    (dot_S256x128_S128x384_S256x384_1_0_0_1_n_n.rhsIdx i q 1).val = (i 1).val := by
  unfold DotDims.rhsIdx
  rw [dif_neg (show ¬(1 : Fin S128x384.rank) ∈ dot_S256x128_S128x384_S256x384_1_0_0_1_n_n.rhsBatch by decide), dif_pos (show (1 : Fin S128x384.rank) ∈ dot_S256x128_S128x384_S256x384_1_0_0_1_n_n.rhsNonContracting by decide)]
  rfl

/-- The flattened outer product against the flattened tensor, into a zero accumulator: a sum over the 16384 positions. -/
theorem bilinearBlock_at (u v : S256x128.Idx → EReal) (a : S16384x384.Idx → EReal) (r : Fin 256) (k : Fin 384) :
    matmul (F := Ideal) (φ₁ := .bf16) (φ₂ := .bf16) dot_S256x16384_S16384x384_S256x384_1_0_0_1_n_n none
        (shapeCast S256x16384 (mulf (F := Ideal) (φ := .bf16)
          (broadcastTo S256x128x128 (shapeCast S256x128x1 u shapeCasts_S256x128_S256x128x1) broadcasts_S256x128x1_S256x128x128)
          (broadcastTo S256x128x128 (shapeCast S256x1x128 v shapeCasts_S256x128_S256x1x128) broadcasts_S256x1x128_S256x128x128))
          shapeCasts_S256x128x128_S256x16384)
        a (constant S256x384 .f32 0x00000000#32) (ix2 r k)
      = ∑ c : Fin 16384, (u (ix2 r (outerRow c)) * v (ix2 r (outerCol c))) * a (ix2 c k) := by
  refine (Ideal.matmul_constant_zero_apply (φ₁ := .bf16) (φ₂ := .bf16) dot_S256x16384_S16384x384_S256x384_1_0_0_1_n_n none _ _ (ix2 r k)).trans ?_
  rw [← Equiv.sum_comp (contrEquiv1 dot_S256x16384_S16384x384_S256x384_1_0_0_1_n_n 16384 rfl rfl).symm]
  refine Finset.sum_congr rfl fun c _ => ?_
  have hk := contrEquiv1_symm_val dot_S256x16384_S16384x384_S256x384_1_0_0_1_n_n 16384 rfl rfl c
  have er : dot_S256x16384_S16384x384_S256x384_1_0_0_1_n_n.rhsIdx (ix2 r k) ((contrEquiv1 dot_S256x16384_S16384x384_S256x384_1_0_0_1_n_n 16384 rfl rfl).symm c) = ix2 c k := funext fun ax => Fin.ext (by
    match ax with
    | ⟨0, _⟩ => exact (rhs_dot_S256x16384_S16384x384_S256x384_1_0_0_1_n_n_0 _ _).trans hk
    | ⟨1, _⟩ => exact rhs_dot_S256x16384_S16384x384_S256x384_1_0_0_1_n_n_1 _ _)
  rw [er, outerFlat_at u v _ r c (lhs_dot_S256x16384_S16384x384_S256x384_1_0_0_1_n_n_0 _ _) ((lhs_dot_S256x16384_S16384x384_S256x384_1_0_0_1_n_n_1 _ _).trans hk)]

/-- A half of the block against a transposed weight matrix, into a zero accumulator: a sum over the 128 features. -/
theorem linearBlock_at (u : S256x128.Idx → EReal) (w : S128x384.Idx → EReal) (r : Fin 256) (k : Fin 384) :
    matmul (F := Ideal) (φ₁ := .bf16) (φ₂ := .bf16) dot_S256x128_S128x384_S256x384_1_0_0_1_n_n none u w (constant S256x384 .f32 0x00000000#32) (ix2 r k)
      = ∑ i : Fin 128, u (ix2 r i) * w (ix2 i k) := by
  refine (Ideal.matmul_constant_zero_apply (φ₁ := .bf16) (φ₂ := .bf16) dot_S256x128_S128x384_S256x384_1_0_0_1_n_n none _ _ (ix2 r k)).trans ?_
  rw [← Equiv.sum_comp (contrEquiv1 dot_S256x128_S128x384_S256x384_1_0_0_1_n_n 128 rfl rfl).symm]
  refine Finset.sum_congr rfl fun i _ => ?_
  have hk := contrEquiv1_symm_val dot_S256x128_S128x384_S256x384_1_0_0_1_n_n 128 rfl rfl i
  have el : dot_S256x128_S128x384_S256x384_1_0_0_1_n_n.lhsIdx (ix2 r k) ((contrEquiv1 dot_S256x128_S128x384_S256x384_1_0_0_1_n_n 128 rfl rfl).symm i) = ix2 r i := funext fun ax => Fin.ext (by
    match ax with
    | ⟨0, _⟩ => exact lhs_dot_S256x128_S128x384_S256x384_1_0_0_1_n_n_0 _ _
    | ⟨1, _⟩ => exact (lhs_dot_S256x128_S128x384_S256x384_1_0_0_1_n_n_1 _ _).trans hk)
  have er : dot_S256x128_S128x384_S256x384_1_0_0_1_n_n.rhsIdx (ix2 r k) ((contrEquiv1 dot_S256x128_S128x384_S256x384_1_0_0_1_n_n 128 rfl rfl).symm i) = ix2 i k := funext fun ax => Fin.ext (by
    match ax with
    | ⟨0, _⟩ => exact (rhs_dot_S256x128_S128x384_S256x384_1_0_0_1_n_n_0 _ _).trans hk
    | ⟨1, _⟩ => exact rhs_dot_S256x128_S128x384_S256x384_1_0_0_1_n_n_1 _ _)
  rw [el, er]

/-! ## The stored block -/

/-- Four vectors added from the left, read at an index where each is known. -/
theorem add4_at {s : Shape} (p q t b : FVec Ideal s .f32) (i : s.Idx) {P Q T B : EReal}
    (hp : p i = P) (hq : q i = Q) (ht : t i = T) (hb : b i = B) :
    addf (addf (addf p q) t) b i = ((P + Q) + T) + B := by
  subst hp hq ht hb
  rfl

/-- Entry (r, k) of what the body stores, from the six blocks it loads. -/
theorem stored_at (x0 x1 : Vec Ideal S256x128 .f32) (x2 : Vec Ideal S16384x384 .bf16) (x3 x4 : Vec Ideal S128x384 .bf16)
    (x5 : Vec Ideal S1x384 .f32) (r : Fin 256) (k : Fin 384) :
    k0_pay1 (F := Ideal) x0 x1 x2 x3 x4 x5 (ix2 r k)
      = (((∑ c : Fin 16384, (x0 (ix2 r (outerRow c)) * x1 (ix2 r (outerCol c))) * x2 (ix2 c k))
          + (∑ i : Fin 128, x0 (ix2 r i) * x3 (ix2 i k)))
          + (∑ i : Fin 128, x1 (ix2 r i) * x4 (ix2 i k)))
        + x5 (ix2 (0 : Fin 1) k) := by
  unfold k0_pay1
  simp only [shapeCast_self]
  refine add4_at _ _ _ _ (ix2 r k) ?_ ?_ ?_ ?_
  · exact bilinearBlock_at x0 x1 x2 r k
  · exact linearBlock_at x0 x3 r k
  · exact linearBlock_at x1 x4 r k
  · exact broadcastTo_1b_ab_apply x5 _ r k

end Cert.KernelIdeal.BodyValue

end
-- ==== Proof.Entry.lean ====
/-
  The six arrays the kernel's windows stage, as the region finds them, read at an index of the ARGUMENTS.

  Before the one kernel launch the program prepares its operands on the host: the node array is cut into its two
  children (a slice at child 0 or 1, then the unit axis dropped), the tensor is flattened over its first two axes
  and narrowed to bf16, each weight matrix is transposed and narrowed, and the bias becomes one row. Over the
  extended reals the narrowing is the identity, so
    children s at (n, i)      is  nh[n, s, i]
    flat tensor at (c, k)     is  A[c / 128, c % 128, k]
    transposed Uˢ at (i, k)   is  Uˢ[k, i]
    bias row at (0, k)        is  b[k].
-/
import proofs.«170840_j75453985456646_1_alg».proof.Proof.Gen.KernelIdeal.Frame
import proofs.«170840_j75453985456646_1_alg».proof.Proof.GateSpec
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.Entry

open Cert.KernelIdeal Cert.KernelIdeal.Gen Cert.BilinearGate

/-! ## The layout operations, at an index -/

/-- Child 0 of every node, the unit axis dropped. -/
theorem child0_at (x : S16384x2x128.Idx → EReal) (j : S16384x128.Idx) (n : Fin 16384) (i : Fin 128)
    (hn : (j 0).val = n.val) (hi : (j 1).val = i.val) :
    shapeCast S16384x128 (extractStridedSlice S16384x1x128 ![0, 0, 0] x slices_S16384x2x128_S16384x1x128_0_0_0)
      shapeCasts_S16384x1x128_S16384x128 j = x (ix3 n (0 : Fin 2) i) := by
  refine (shapeCast_apply _ _ j (ix3 n (0 : Fin 1) i) (by
    rw [Shape.rowMajor_val_three, Shape.rowMajor_val_two]
    show (n.val * 1 + 0) * 128 + i.val = (j 0).val * 128 + (j 1).val
    omega)).trans ?_
  exact extractStridedSlice_apply _ _ _ (ix3 n (0 : Fin 1) i) (ix3 n (0 : Fin 2) i) (fun a => by
    match a with
    | ⟨0, _⟩ => show n.val = 0 + n.val; omega
    | ⟨1, _⟩ => rfl
    | ⟨2, _⟩ => show i.val = 0 + i.val; omega)

/-- Child 1 of every node, the unit axis dropped. -/
theorem child1_at (x : S16384x2x128.Idx → EReal) (j : S16384x128.Idx) (n : Fin 16384) (i : Fin 128)
    (hn : (j 0).val = n.val) (hi : (j 1).val = i.val) :
    shapeCast S16384x128 (extractStridedSlice S16384x1x128 ![0, 1, 0] x slices_S16384x2x128_S16384x1x128_0_1_0)
      shapeCasts_S16384x1x128_S16384x128 j = x (ix3 n (1 : Fin 2) i) := by
  refine (shapeCast_apply _ _ j (ix3 n (0 : Fin 1) i) (by
    rw [Shape.rowMajor_val_three, Shape.rowMajor_val_two]
    show (n.val * 1 + 0) * 128 + i.val = (j 0).val * 128 + (j 1).val
    omega)).trans ?_
  exact extractStridedSlice_apply _ _ _ (ix3 n (0 : Fin 1) i) (ix3 n (1 : Fin 2) i) (fun a => by
    match a with
    | ⟨0, _⟩ => show n.val = 0 + n.val; omega
    | ⟨1, _⟩ => rfl
    | ⟨2, _⟩ => show i.val = 0 + i.val; omega)

/-- The tensor flattened over its first two axes: position `c` is (c / 128, c % 128). -/
theorem flatTensor_at (x : S128x128x384.Idx → EReal) (j : S16384x384.Idx) (c : Fin 16384) (k : Fin 384)
    (hc : (j 0).val = c.val) (hk : (j 1).val = k.val) :
    shapeCast S16384x384 x shapeCasts_S128x128x384_S16384x384 j = x (ix3 (outerRow c) (outerCol c) k) := by
  have h0 := c.isLt
  have h1 := k.isLt
  exact shapeCast_apply _ _ j (ix3 (outerRow c) (outerCol c) k) (by
    rw [Shape.rowMajor_val_three, Shape.rowMajor_val_two]
    show (c.val / 128 * 128 + c.val % 128) * 384 + k.val = (j 0).val * 384 + (j 1).val
    omega)

/-- A weight matrix transposed. -/
theorem weightT_at (x : S384x128.Idx → EReal) (j : S128x384.Idx) (i : Fin 128) (k : Fin 384)
    (hi : (j 0).val = i.val) (hk : (j 1).val = k.val) :
    transpose S128x384 [1, 0] x transposes_S384x128_S128x384_1_0 j = x (ix2 k i) :=
  transpose_apply _ x _ j (ix2 k i) fun b => match b with
    | ⟨0, _⟩ => hi.symm
    | ⟨1, _⟩ => hk.symm

/-- The bias as one row. -/
theorem biasRow_at (x : S384.Idx → EReal) (j : S1x384.Idx) (k : Fin 384) (hk : (j 1).val = k.val) :
    shapeCast S1x384 x shapeCasts_S384_S1x384 j = x (ix1 k) :=
  shapeCast_apply _ _ j (ix1 k) (by
    have h0 : (j 0).val = 0 := by have := idx2_lt0 j; omega
    rw [Shape.rowMajor_val_one, Shape.rowMajor_val_two]
    show k.val = (j 0).val * 384 + (j 1).val
    omega)

/-! ## The staged arrays at region entry -/

variable (m : (ℓ : Loc nD τ sig) → Buf (Elt Ideal) ℓ)

theorem children0_eq (c : Dev nD) :
    (V m c main_v1 : S16384x128.Idx → EReal)
      = shapeCast S16384x128 (extractStridedSlice S16384x1x128 ![0, 0, 0] (m ((c : Thread nD τ).loc main_arg0)) slices_S16384x2x128_S16384x1x128_0_0_0)
          shapeCasts_S16384x1x128_S16384x128 := by
  dsimp only [V, hostOps0]
  after_results
  rfl

theorem children1_eq (c : Dev nD) :
    (V m c main_v3 : S16384x128.Idx → EReal)
      = shapeCast S16384x128 (extractStridedSlice S16384x1x128 ![0, 1, 0] (m ((c : Thread nD τ).loc main_arg0)) slices_S16384x2x128_S16384x1x128_0_1_0)
          shapeCasts_S16384x1x128_S16384x128 := by
  dsimp only [V, hostOps0]
  after_results
  rfl

theorem tensor_eq (c : Dev nD) :
    (V m c main_v5 : S16384x384.Idx → EReal)
      = shapeCast S16384x384 (m ((c : Thread nD τ).loc main_arg1)) shapeCasts_S128x128x384_S16384x384 := by
  dsimp only [V, hostOps0]
  after_results
  rfl

theorem weight1_eq (c : Dev nD) :
    (V m c main_v7 : S128x384.Idx → EReal)
      = transpose S128x384 [1, 0] (m ((c : Thread nD τ).loc main_arg2)) transposes_S384x128_S128x384_1_0 := by
  dsimp only [V, hostOps0]
  after_results
  rfl

theorem weight2_eq (c : Dev nD) :
    (V m c main_v9 : S128x384.Idx → EReal)
      = transpose S128x384 [1, 0] (m ((c : Thread nD τ).loc main_arg3)) transposes_S384x128_S128x384_1_0 := by
  dsimp only [V, hostOps0]
  after_results
  rfl

theorem bias_eq (c : Dev nD) :
    (V m c main_v10 : S1x384.Idx → EReal)
      = shapeCast S1x384 (m ((c : Thread nD τ).loc main_arg4)) shapeCasts_S384_S1x384 := by
  dsimp only [V, hostOps0]
  after_results
  rfl

end Cert.KernelIdeal.Entry

end
-- ==== Proof.GateRun.lean ====
/-
  The kernel's result array is `gate` of the arguments.

  The launch walks 64 grid points. Point `t` is handed rows 256·t … 256·t + 255 of the two children arrays, and the
  whole flattened tensor, both transposed weight matrices and the bias row (the same at every point); it writes back
  rows 256·t … 256·t + 255 of the result. So entry (r, k) of what point `t` writes is the stored block's entry
  (`BodyValue.stored_at`) with every loaded block read as the arguments (`Entry`): it is `gate` at (256·t + r, k).
  The 64 row bands cover the result array — row `n` lies in the band of point `n / 256` — so the array ends holding `gate`.
-/
import proofs.«170840_j75453985456646_1_alg».proof.Proof.Gen.KernelIdeal.Value
import proofs.«170840_j75453985456646_1_alg».proof.Proof.GateSpec
import proofs.«170840_j75453985456646_1_alg».proof.Proof.BodyValue
import proofs.«170840_j75453985456646_1_alg».proof.Proof.Entry
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.GateRun

open Cert.KernelIdeal Cert.KernelIdeal.Gen Cert.KernelIdeal.Value Cert.BilinearGate

variable (m : (ℓ : Loc nD τ sig) → Buf (Elt Ideal) ℓ) (ρ : Dev nD → PrngReg)

theorem zeros : (![0, 0] : Fin 2 → Nat) = fun _ => 0 := funext fun a => by fin_cases a <;> rfl

theorem point_lt (t : Fin cfg0.N) : t.val < 64 := by
  have h : t.val < cfg0.N := t.isLt
  have e : cfg0.N = 64 := N_0
  omega

/-- The index maps, decided over the 64 points: the children windows and the result window follow the point along
    the nodes; the tensor, the weights and the bias stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The blocks a point is handed, as the arguments -/

/-- The six input blocks of a point, at their literal types. -/
abbrev kids0 (c : Dev nD) (t : Fin cfg0.N) : Vec Ideal S256x128 .f32 := iblk m c 0 t
abbrev kids1 (c : Dev nD) (t : Fin cfg0.N) : Vec Ideal S256x128 .f32 := iblk m c 1 t
abbrev tensorBlk (c : Dev nD) (t : Fin cfg0.N) : Vec Ideal S16384x384 .bf16 := iblk m c 2 t
abbrev weight1Blk (c : Dev nD) (t : Fin cfg0.N) : Vec Ideal S128x384 .bf16 := iblk m c 3 t
abbrev weight2Blk (c : Dev nD) (t : Fin cfg0.N) : Vec Ideal S128x384 .bf16 := iblk m c 4 t
abbrev biasBlk (c : Dev nD) (t : Fin cfg0.N) : Vec Ideal S1x384 .f32 := iblk m c 5 t

theorem kids0_at (c : Dev nD) (t : Fin cfg0.N) (y : S256x128.Idx) (n : Fin 16384) (i : Fin 128)
    (hn : 256 * t.val + (y 0).val = n.val) (hi : (y 1).val = i.val) :
    kids0 m c t y = m ((c : Thread nD τ).loc main_arg0) (ix3 n (0 : Fin 2) i) := by
  obtain ⟨e0, e1, -⟩ := index_facts t
  show (V m c main_v1 : S16384x128.Idx → EReal) (((cfg0.win 0).blk t).view.emb y) = _
  rw [Entry.children0_eq]
  refine Entry.child0_at _ _ n i ?_ ?_
  · show win0_0.index t (0 : Fin 2) * 256 + 1 * (y 0).val = n.val
    rw [e0]; omega
  · show win0_0.index t (1 : Fin 2) * 128 + 1 * (y 1).val = i.val
    rw [e1]; omega

theorem kids1_at (c : Dev nD) (t : Fin cfg0.N) (y : S256x128.Idx) (n : Fin 16384) (i : Fin 128)
    (hn : 256 * t.val + (y 0).val = n.val) (hi : (y 1).val = i.val) :
    kids1 m c t y = m ((c : Thread nD τ).loc main_arg0) (ix3 n (1 : Fin 2) i) := by
  obtain ⟨-, -, e0, e1, -⟩ := index_facts t
  show (V m c main_v3 : S16384x128.Idx → EReal) (((cfg0.win 1).blk t).view.emb y) = _
  rw [Entry.children1_eq]
  refine Entry.child1_at _ _ n i ?_ ?_
  · show win0_1.index t (0 : Fin 2) * 256 + 1 * (y 0).val = n.val
    rw [e0]; omega
  · show win0_1.index t (1 : Fin 2) * 128 + 1 * (y 1).val = i.val
    rw [e1]; omega

theorem tensorBlk_at (c : Dev nD) (t : Fin cfg0.N) (y : S16384x384.Idx) (p : Fin 16384) (k : Fin 384)
    (hp : (y 0).val = p.val) (hk : (y 1).val = k.val) :
    tensorBlk m c t y = m ((c : Thread nD τ).loc main_arg1) (ix3 (outerRow p) (outerCol p) k) := by
  obtain ⟨-, -, -, -, e0, e1, -⟩ := index_facts t
  show (V m c main_v5 : S16384x384.Idx → EReal) (((cfg0.win 2).blk t).view.emb y) = _
  rw [Entry.tensor_eq]
  refine Entry.flatTensor_at _ _ p k ?_ ?_
  · show win0_2.index t (0 : Fin 2) * 16384 + 1 * (y 0).val = p.val
    rw [e0]; omega
  · show win0_2.index t (1 : Fin 2) * 384 + 1 * (y 1).val = k.val
    rw [e1]; omega

theorem weight1Blk_at (c : Dev nD) (t : Fin cfg0.N) (y : S128x384.Idx) (i : Fin 128) (k : Fin 384)
    (hi : (y 0).val = i.val) (hk : (y 1).val = k.val) :
    weight1Blk m c t y = m ((c : Thread nD τ).loc main_arg2) (ix2 k i) := by
  obtain ⟨-, -, -, -, -, -, e0, e1, -⟩ := index_facts t
  show (V m c main_v7 : S128x384.Idx → EReal) (((cfg0.win 3).blk t).view.emb y) = _
  rw [Entry.weight1_eq]
  refine Entry.weightT_at _ _ i k ?_ ?_
  · show win0_3.index t (0 : Fin 2) * 128 + 1 * (y 0).val = i.val
    rw [e0]; omega
  · show win0_3.index t (1 : Fin 2) * 384 + 1 * (y 1).val = k.val
    rw [e1]; omega

theorem weight2Blk_at (c : Dev nD) (t : Fin cfg0.N) (y : S128x384.Idx) (i : Fin 128) (k : Fin 384)
    (hi : (y 0).val = i.val) (hk : (y 1).val = k.val) :
    weight2Blk m c t y = m ((c : Thread nD τ).loc main_arg3) (ix2 k i) := by
  obtain ⟨-, -, -, -, -, -, -, -, e0, e1, -⟩ := index_facts t
  show (V m c main_v9 : S128x384.Idx → EReal) (((cfg0.win 4).blk t).view.emb y) = _
  rw [Entry.weight2_eq]
  refine Entry.weightT_at _ _ i k ?_ ?_
  · show win0_4.index t (0 : Fin 2) * 128 + 1 * (y 0).val = i.val
    rw [e0]; omega
  · show win0_4.index t (1 : Fin 2) * 384 + 1 * (y 1).val = k.val
    rw [e1]; omega

theorem biasBlk_at (c : Dev nD) (t : Fin cfg0.N) (y : S1x384.Idx) (k : Fin 384) (hk : (y 1).val = k.val) :
    biasBlk m c t y = m ((c : Thread nD τ).loc main_arg4) (ix1 k) := by
  obtain ⟨-, -, -, -, -, -, -, -, -, -, e0, e1, -⟩ := index_facts t
  show (V m c main_v10 : S1x384.Idx → EReal) (((cfg0.win 5).blk t).view.emb y) = _
  rw [Entry.bias_eq]
  refine Entry.biasRow_at _ _ k ?_
  show win0_5.index t (1 : Fin 2) * 384 + 1 * (y 1).val = k.val
  rw [e1]; omega

/-! ## One entry of what a point stores is `gate` there -/

/-- Over any six blocks that read as the arguments do at node `n` and channel `k`, entry (r, k) of the stored block is
    `gate` at (n, k). -/
theorem stored_eq_gate (nh : S16384x2x128.Idx → EReal) (A : S128x128x384.Idx → EReal) (U1 U2 : S384x128.Idx → EReal)
    (b : S384.Idx → EReal)
    (x0 x1 : Vec Ideal S256x128 .f32) (x2 : Vec Ideal S16384x384 .bf16) (x3 x4 : Vec Ideal S128x384 .bf16) (x5 : Vec Ideal S1x384 .f32)
    (y : S256x384.Idx) (i : S16384x384.Idx) (r : Fin 256) (n : Fin 16384) (k : Fin 384)
    (hyr : (y 0).val = r.val) (hyk : (y 1).val = k.val) (hin : (i 0).val = n.val) (hik : (i 1).val = k.val)
    (h0 : ∀ q : Fin 128, x0 (ix2 r q) = nh (ix3 n (0 : Fin 2) q))
    (h1 : ∀ q : Fin 128, x1 (ix2 r q) = nh (ix3 n (1 : Fin 2) q))
    (h2 : ∀ p : Fin 16384, x2 (ix2 p k) = A (ix3 (outerRow p) (outerCol p) k))
    (h3 : ∀ q : Fin 128, x3 (ix2 q k) = U1 (ix2 k q))
    (h4 : ∀ q : Fin 128, x4 (ix2 q k) = U2 (ix2 k q))
    (h5 : x5 (ix2 (0 : Fin 1) k) = b (ix1 k)) :
    k0_pay1 (F := Ideal) x0 x1 x2 x3 x4 x5 y = gate nh A U1 U2 b i := by
  obtain rfl : y = ix2 r k := funext fun a => Fin.ext (match a with | ⟨0, _⟩ => hyr | ⟨1, _⟩ => hyk)
  obtain rfl : i = ix2 n k := funext fun a => Fin.ext (match a with | ⟨0, _⟩ => hin | ⟨1, _⟩ => hik)
  rw [BodyValue.stored_at, gate_ix2]
  unfold gateAt bilinear linear
  simp only [h0, h1, h2, h3, h4, h5]

/-! ## What a point writes back, the cover, the array -/

/-- What point `t` writes back is its row band of `gate` of the arguments. -/
theorem flushed_eq (c : Dev nD) (t : Fin cfg0.N) :
    (dats m 0 c).flushed 6 t = ((cfg0.win 6).blk t).view.read (Elt Ideal) (gate (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed6]
  unfold out0_6
  rw [View.canon_unit_zero zeros]
  simp only [View.ld_unit_zero (S := S256x128) zeros, View.ld_unit_zero (S := S16384x384) zeros,
    View.ld_unit_zero (S := S128x384) zeros, View.ld_unit_zero (S := S1x384) zeros]
  have ht := point_lt t
  have e6 : win0_6.index t (0 : Fin 2) = t.val ∧ win0_6.index t (1 : Fin 2) = 0 := by
    obtain ⟨-, -, -, -, -, -, -, -, -, -, -, -, e0, e1⟩ := index_facts t
    exact ⟨e0, e1⟩
  funext y
  have hy0 : (y 0).val < 256 := (y 0).isLt
  have hy1 : (y 1).val < 384 := (y 1).isLt
  show k0_pay1 (F := Ideal) (kids0 m c t) (kids1 m c t) (tensorBlk m c t) (weight1Blk m c t) (weight2Blk m c t) (biasBlk m c t) y
      = gate (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y)
  refine stored_eq_gate (m ((c : Thread nD τ).loc main_arg0)) (m ((c : Thread nD τ).loc main_arg1)) (m ((c : Thread nD τ).loc main_arg2)) (m ((c : Thread nD τ).loc main_arg3)) (m ((c : Thread nD τ).loc main_arg4))
    (kids0 m c t) (kids1 m c t) (tensorBlk m c t) (weight1Blk m c t) (weight2Blk m c t) (biasBlk m c t)
    y (((cfg0.win 6).blk t).view.emb y) ⟨(y 0).val, hy0⟩ ⟨256 * t.val + (y 0).val, by omega⟩ ⟨(y 1).val, hy1⟩
    rfl rfl ?_ ?_ (fun q => ?_) (fun q => ?_) (fun p => ?_) (fun q => ?_) (fun q => ?_) ?_
  · show win0_6.index t (0 : Fin 2) * 256 + 1 * (y 0).val = 256 * t.val + (y 0).val
    rw [e6.1]; omega
  · show win0_6.index t (1 : Fin 2) * 384 + 1 * (y 1).val = (y 1).val
    rw [e6.2]; omega
  · exact kids0_at m c t _ _ q rfl rfl
  · exact kids1_at m c t _ _ q rfl rfl
  · exact tensorBlk_at m c t _ p _ rfl rfl
  · exact weight1Blk_at m c t _ q _ rfl rfl
  · exact weight2Blk_at m c t _ q _ rfl rfl
  · exact biasBlk_at m c t _ _ rfl

/-- An index of the result array is in point `t`'s band iff each coordinate is in the band's range on its axis. -/
theorem mem_band (t : Fin cfg0.N) (i : S16384x384.Idx) :
    i ∈ ((cfg0.win 6).blk t).view.set ↔ ∀ a : Fin 2, win0_6.index t a * S256x384.size a ≤ (i a).val ∧ (i a).val < win0_6.index t a * S256x384.size a + S256x384.size a := by
  show i ∈ ((View.whole main_v11).slice (win0_6.rect t)).set ↔ _
  rw [View.set_slice_whole, Rect.mem_set_unit]
  exact Iff.rfl

/-- Every row of the result lies in the band of the point `row / 256`. -/
theorem covered (i : S16384x384.Idx) :
    ∃ t : Fin cfg0.N, (cfg0.win 6).flush t = true ∧ i ∈ ((cfg0.win 6).blk t).view.set := by
  have h0 : (i 0).val < 16384 := idx2_lt0 i
  have h1 : (i 1).val < 384 := idx2_lt1 i
  have hN : cfg0.N = 64 := N_0
  let t : Fin cfg0.N := ⟨(i 0).val / 256, by rw [hN]; omega⟩
  have e6 : win0_6.index t (0 : Fin 2) = (i 0).val / 256 ∧ win0_6.index t (1 : Fin 2) = 0 := by
    obtain ⟨-, -, -, -, -, -, -, -, -, -, -, -, e0, e1⟩ := index_facts t
    exact ⟨e0, e1⟩
  refine ⟨t, flush0_6 t, ?_⟩
  rw [mem_band]
  intro a
  match a with
  | ⟨0, _⟩ =>
    show win0_6.index t (0 : Fin 2) * 256 ≤ (i 0).val ∧ (i 0).val < win0_6.index t (0 : Fin 2) * 256 + 256
    rw [e6.1]; omega
  | ⟨1, _⟩ =>
    show win0_6.index t (1 : Fin 2) * 384 ≤ (i 1).val ∧ (i 1).val < win0_6.index t (1 : Fin 2) * 384 + 384
    rw [e6.2]; omega

/-- The result array after the run. -/
theorem final (c : Dev nD) : (dats m 0 c).arrAt 6 cfg0.N = gate (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 (gate (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m c t) covered

/-- The run, read: the result array at `gate` of the arguments, the arguments unchanged. -/
theorem run : θ_run defs (onTc (τ := τ) (main (F := Ideal))) ⟨m, fun _ => 0, ρ⟩ fun r => ∀ c : Dev nD,
      r.2.mem ((c : Thread nD τ).loc main_v11) = gate (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.GateRun

end
-- ==== Proof.lean ====
/-
  The gate of a binary tree cell with a full bilinear tensor: a kernel that walks the nodes band by band against a
  reference that computes all nodes at once, over the extended reals.

  For node `n` with children embeddings `h¹ = nh[n, 0, ·]`, `h² = nh[n, 1, ·]` in ℝ¹²⁸ and output channel `k` of 384,
  both programs compute

      gate[n, k] = Σ_{i,j} h¹ᵢ · h²ⱼ · A[i, j, k]  +  Σᵢ h¹ᵢ · U¹[k, i]  +  Σᵢ h²ᵢ · U²[k, i]  +  b[k],

  the double sum taken as ONE sum over the flattened position 128·i + j of the outer product h¹ ⊗ h² (both contract
  that flattened axis against the tensor flattened the same way), the three additions grouped from the left
  (Proof/GateSpec.lean).

  The reference forms the outer product of all 16384 nodes at once and takes three host contractions
  (Proof/RefGate.lean). The kernel walks the nodes in 64 bands of 256: a band's outer product is formed in the body,
  the three products go into zero accumulators (plain sums over the extended reals), and the operands it narrows to
  bf16 are unchanged there (Proof/BodyValue.lean); the arrays it is handed are the arguments sliced, flattened and
  transposed on the host (Proof/Entry.lean); band `t` of the result is `gate` on rows 256·t … 256·t + 255 and the bands
  cover the array (Proof/GateRun.lean). The two sides are the same sums of the same products in the same grouping,
  so the equality uses no law of the extended reals beyond re-indexing a sum, and the precondition that the inputs
  are finite is not needed for it. The idealization rewrote no operation, so that conjunct is trivial.
-/
import proofs.«170840_j75453985456646_1_alg».proof.Defs
import proofs.«170840_j75453985456646_1_alg».proof.Proof.Gen.Kernel
import proofs.«170840_j75453985456646_1_alg».proof.Proof.Gen.Kernel.Skeleton
import proofs.«170840_j75453985456646_1_alg».proof.Proof.Gen.Kernel.Launch
import proofs.«170840_j75453985456646_1_alg».proof.Proof.Gen.Kernel.Points
import proofs.«170840_j75453985456646_1_alg».proof.Proof.Gen.Kernel.Frame
import proofs.«170840_j75453985456646_1_alg».proof.Proof.Gen.KernelIdeal
import proofs.«170840_j75453985456646_1_alg».proof.Proof.Gen.KernelIdeal.Skeleton
import proofs.«170840_j75453985456646_1_alg».proof.Proof.Gen.KernelIdeal.Launch
import proofs.«170840_j75453985456646_1_alg».proof.Proof.Gen.KernelIdeal.Points
import proofs.«170840_j75453985456646_1_alg».proof.Proof.Gen.KernelIdeal.Frame
import proofs.«170840_j75453985456646_1_alg».proof.Proof.Gen.ReferenceIdeal
import proofs.«170840_j75453985456646_1_alg».proof.Proof.Gen.Pre_finite_inputs
import proofs.«170840_j75453985456646_1_alg».proof.Proof.Gen.KernelIdeal.Value
import proofs.«170840_j75453985456646_1_alg».proof.Proof.Gen.ReferenceIdeal.Run
import proofs.«170840_j75453985456646_1_alg».proof.Proof.Gen.ReferenceIdeal.Read
import proofs.«170840_j75453985456646_1_alg».proof.Proof.GateSpec
import proofs.«170840_j75453985456646_1_alg».proof.Proof.RefGate
import proofs.«170840_j75453985456646_1_alg».proof.Proof.GateRun
import Idealize.ShloMosaic.Adequacy
import Idealize.ShloMosaic.Init

noncomputable section

namespace Cert.Proof

open Idealize.ShloMosaic Idealize.SL.Sem Cert.BilinearGate

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array ends at `gate` of them (the bands cover the array) and the
    reference's result is `gate` of them stage by stage: equal entry by entry. -/
theorem algebraic : Cert.algebraic_KernelIdeal_ReferenceIdeal := by
  intro m ρ m' ρ' _ hagree
  refine ⟨fun c => gate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.KernelIdeal.GateRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefGate.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
